-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S512x256 : Shape := ⟨2, ![512, 256]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x128 .f32) (main_arg1 : IVec S2x500000 32) (main_arg2 : FVec F S500000 .f32) (main_arg3 : FVec F S512x256 .f32) (main_arg4 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x128 : Shape := ⟨2, ![50000, 128]⟩
abbrev S2x500000 : Shape := ⟨2, ![2, 500000]⟩
abbrev S500000 : Shape := ⟨1, ![500000]⟩
abbrev S512x256 : Shape := ⟨2, ![512, 256]⟩
abbrev S256 : Shape := ⟨1, ![256]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S550000 : Shape := ⟨1, ![550000]⟩
abbrev S550000x1 : Shape := ⟨2, ![550000, 1]⟩
abbrev S550000x128 : Shape := ⟨2, ![550000, 128]⟩
abbrev S50000x512 : Shape := ⟨2, ![50000, 512]⟩
abbrev S50000x256 : Shape := ⟨2, ![50000, 256]⟩
abbrev S5000x512 : Shape := ⟨2, ![5000, 512]⟩
abbrev S5000x256 : Shape := ⟨2, ![5000, 256]⟩
abbrev S1x256 : Shape := ⟨2, ![1, 256]⟩

abbrev nBuf : Space → Nat
  | .hbm => 105
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .f32⟩
  | .hbm, ⟨3, _⟩ => ⟨S512x256, .f32⟩
  | .hbm, ⟨4, _⟩ => ⟨S256, .f32⟩
  | .hbm, ⟨5, _⟩ => ⟨S1x500000, .i32⟩
  | .hbm, ⟨6, _⟩ => ⟨S500000, .i32⟩
  | .hbm, ⟨7, _⟩ => ⟨S1x500000, .i32⟩
  | .hbm, ⟨8, _⟩ => ⟨S500000, .i32⟩
  | .hbm, ⟨9, _⟩ => ⟨S_, .f32⟩
  | .hbm, ⟨10, _⟩ => ⟨S50000, .f32⟩
  | .hbm, ⟨11, _⟩ => ⟨S500000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000, .f32⟩
  | .hbm, ⟨36, _⟩ => ⟨S500000, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000, .f32⟩
  | .hbm, ⟨46, _⟩ => ⟨S500000, .f32⟩
  | .hbm, ⟨47, _⟩ => ⟨S50000, .i32⟩
  | .hbm, ⟨48, _⟩ => ⟨S550000, .i32⟩
  | .hbm, ⟨49, _⟩ => ⟨S550000, .i32⟩
  | .hbm, ⟨50, _⟩ => ⟨S_, .f32⟩
  | .hbm, ⟨51, _⟩ => ⟨S50000, .f32⟩
  | .hbm, ⟨52, _⟩ => ⟨S550000, .f32⟩
  | .hbm, ⟨53, _⟩ => ⟨S_, .i32⟩
  | .hbm, ⟨54, _⟩ => ⟨S550000, .i32⟩
  | .hbm, ⟨55, _⟩ => ⟨S550000, .i1⟩
  | .hbm, ⟨56, _⟩ => ⟨S_, .i32⟩
  | .hbm, ⟨57, _⟩ => ⟨S550000, .i32⟩
  | .hbm, ⟨58, _⟩ => ⟨S550000, .i32⟩
  | .hbm, ⟨59, _⟩ => ⟨S550000, .i32⟩
  | .hbm, ⟨60, _⟩ => ⟨S550000x1, .i32⟩
  | .hbm, ⟨61, _⟩ => ⟨S550000x128, .f32⟩
  | .hbm, ⟨62, _⟩ => ⟨S550000x1, .f32⟩
  | .hbm, ⟨63, _⟩ => ⟨S550000x128, .f32⟩
  | .hbm, ⟨64, _⟩ => ⟨S550000x128, .f32⟩
  | .hbm, ⟨65, _⟩ => ⟨S_, .f32⟩
  | .hbm, ⟨66, _⟩ => ⟨S50000x128, .f32⟩
  | .hbm, ⟨67, _⟩ => ⟨S550000x1, .i32⟩
  | .hbm, ⟨68, _⟩ => ⟨S50000x128, .f32⟩
  | .hbm, ⟨69, _⟩ => ⟨S_, .i32⟩
  | .hbm, ⟨70, _⟩ => ⟨S550000, .i32⟩
  | .hbm, ⟨71, _⟩ => ⟨S550000, .i1⟩
  | .hbm, ⟨72, _⟩ => ⟨S_, .i32⟩
  | .hbm, ⟨73, _⟩ => ⟨S550000, .i32⟩
  | .hbm, ⟨74, _⟩ => ⟨S550000, .i32⟩
  | .hbm, ⟨75, _⟩ => ⟨S550000, .i32⟩
  | .hbm, ⟨76, _⟩ => ⟨S550000x1, .i32⟩
  | .hbm, ⟨77, _⟩ => ⟨S550000x128, .f32⟩
  | .hbm, ⟨78, _⟩ => ⟨S550000x1, .f32⟩
  | .hbm, ⟨79, _⟩ => ⟨S550000x128, .f32⟩
  | .hbm, ⟨80, _⟩ => ⟨S550000x128, .f32⟩
  | .hbm, ⟨81, _⟩ => ⟨S_, .f32⟩
  | .hbm, ⟨82, _⟩ => ⟨S50000x128, .f32⟩
  | .hbm, ⟨83, _⟩ => ⟨S550000x1, .i32⟩
  | .hbm, ⟨84, _⟩ => ⟨S50000x128, .f32⟩
  | .hbm, ⟨85, _⟩ => ⟨S_, .i32⟩
  | .hbm, ⟨86, _⟩ => ⟨S550000, .i32⟩
  | .hbm, ⟨87, _⟩ => ⟨S550000, .i1⟩
  | .hbm, ⟨88, _⟩ => ⟨S_, .i32⟩
  | .hbm, ⟨89, _⟩ => ⟨S550000, .i32⟩
  | .hbm, ⟨90, _⟩ => ⟨S550000, .i32⟩
  | .hbm, ⟨91, _⟩ => ⟨S550000, .i32⟩
  | .hbm, ⟨92, _⟩ => ⟨S550000x1, .i32⟩
  | .hbm, ⟨93, _⟩ => ⟨S550000x128, .f32⟩
  | .hbm, ⟨94, _⟩ => ⟨S550000x1, .f32⟩
  | .hbm, ⟨95, _⟩ => ⟨S550000x128, .f32⟩
  | .hbm, ⟨96, _⟩ => ⟨S550000x128, .f32⟩
  | .hbm, ⟨97, _⟩ => ⟨S_, .f32⟩
  | .hbm, ⟨98, _⟩ => ⟨S50000x128, .f32⟩
  | .hbm, ⟨99, _⟩ => ⟨S550000x1, .i32⟩
  | .hbm, ⟨100, _⟩ => ⟨S50000x128, .f32⟩
  | .hbm, ⟨101, _⟩ => ⟨S50000x512, .f32⟩
  | .hbm, ⟨102, _⟩ => ⟨S50000x512, .bf16⟩
  | .hbm, ⟨103, _⟩ => ⟨S512x256, .bf16⟩
  | .hbm, ⟨104, _⟩ => ⟨S50000x256, .f32⟩
  | .local _ .vmem, ⟨0, _⟩ => ⟨S5000x512, .bf16⟩
  | .local _ .vmem, ⟨1, _⟩ => ⟨S5000x512, .bf16⟩
  | .local _ .vmem, ⟨2, _⟩ => ⟨S512x256, .bf16⟩
  | .local _ .vmem, ⟨3, _⟩ => ⟨S256, .f32⟩
  | .local _ .vmem, ⟨4, _⟩ => ⟨S5000x256, .f32⟩
  | .local _ .vmem, ⟨5, _⟩ => ⟨S5000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  concatenates_S500000_S50000_S550000_d0 : Shape.Concatenates [S500000, S50000] S550000 0
  bcast_S_S550000 : S_.BroadcastsInDim S550000 (![] : Fin 0 → Fin S550000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x512_S512x256_S5000x256_1_0_0_1_n_n_wf : DotDims.WF S5000x512 S512x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x512_S512x256_S5000x256_1_0_0_1_n_n : DotDims S5000x512 S512x256 S5000x256 where
  lhsContracting := [1]
  rhsContracting := [0]
  lhsNonContracting := [0]
  rhsNonContracting := [1]
  lhsBatch := []
  rhsBatch := []
  wf := dot_S5000x512_S512x256_S5000x256_1_0_0_1_n_n_wf

abbrev win0_0 : Pipeline.Window sig grid0 :=
  Pipeline.Window.ofSpec (Memref.whole main_v76) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v78) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S512x256 : Shape := ⟨2, ![512, 256]⟩
abbrev S256 : Shape := ⟨1, ![256]⟩
abbrev S1x500000 : Shape := ⟨2, ![1, 500000]⟩
abbrev S_ : Shape := ⟨0, ![]⟩
abbrev S50000 : Shape := ⟨1, ![50000]⟩
abbrev S500000x1 : Shape := ⟨2, ![500000, 1]⟩
abbrev S550000 : Shape := ⟨1, ![550000]⟩
abbrev S550000x1 : Shape := ⟨2, ![550000, 1]⟩
abbrev S550000x128 : Shape := ⟨2, ![550000, 128]⟩
abbrev S50000x512 : Shape := ⟨2, ![50000, 512]⟩
abbrev S50000x256 : Shape := ⟨2, ![50000, 256]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .f32⟩
  | .hbm, ⟨3, _⟩ => ⟨S512x256, .f32⟩
  | .hbm, ⟨4, _⟩ => ⟨S256, .f32⟩
  | .hbm, ⟨5, _⟩ => ⟨S1x500000, .i32⟩
  | .hbm, ⟨6, _⟩ => ⟨S500000, .i32⟩
  | .hbm, ⟨7, _⟩ => ⟨S1x500000, .i32⟩
  | .hbm, ⟨8, _⟩ => ⟨S500000, .i32⟩
  | .hbm, ⟨9, _⟩ => ⟨S_, .f32⟩
  | .hbm, ⟨10, _⟩ => ⟨S50000, .f32⟩
  | .hbm, ⟨11, _⟩ => ⟨S500000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000, .f32⟩
  | .hbm, ⟨36, _⟩ => ⟨S500000, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000, .f32⟩
  | .hbm, ⟨46, _⟩ => ⟨S500000, .f32⟩
  | .hbm, ⟨47, _⟩ => ⟨S50000, .i32⟩
  | .hbm, ⟨48, _⟩ => ⟨S550000, .i32⟩
  | .hbm, ⟨49, _⟩ => ⟨S550000, .i32⟩
  | .hbm, ⟨50, _⟩ => ⟨S_, .f32⟩
  | .hbm, ⟨51, _⟩ => ⟨S50000, .f32⟩
  | .hbm, ⟨52, _⟩ => ⟨S550000, .f32⟩
  | .hbm, ⟨53, _⟩ => ⟨S_, .i32⟩
  | .hbm, ⟨54, _⟩ => ⟨S550000, .i32⟩
  | .hbm, ⟨55, _⟩ => ⟨S550000, .i1⟩
  | .hbm, ⟨56, _⟩ => ⟨S_, .i32⟩
  | .hbm, ⟨57, _⟩ => ⟨S550000, .i32⟩
  | .hbm, ⟨58, _⟩ => ⟨S550000, .i32⟩
  | .hbm, ⟨59, _⟩ => ⟨S550000, .i32⟩
  | .hbm, ⟨60, _⟩ => ⟨S550000x1, .i32⟩
  | .hbm, ⟨61, _⟩ => ⟨S550000x128, .f32⟩
  | .hbm, ⟨62, _⟩ => ⟨S550000x1, .f32⟩
  | .hbm, ⟨63, _⟩ => ⟨S550000x128, .f32⟩
  | .hbm, ⟨64, _⟩ => ⟨S550000x128, .f32⟩
  | .hbm, ⟨65, _⟩ => ⟨S_, .f32⟩
  | .hbm, ⟨66, _⟩ => ⟨S50000x128, .f32⟩
  | .hbm, ⟨67, _⟩ => ⟨S550000x1, .i32⟩
  | .hbm, ⟨68, _⟩ => ⟨S50000x128, .f32⟩
  | .hbm, ⟨69, _⟩ => ⟨S_, .i32⟩
  | .hbm, ⟨70, _⟩ => ⟨S550000, .i32⟩
  | .hbm, ⟨71, _⟩ => ⟨S550000, .i1⟩
  | .hbm, ⟨72, _⟩ => ⟨S_, .i32⟩
  | .hbm, ⟨73, _⟩ => ⟨S550000, .i32⟩
  | .hbm, ⟨74, _⟩ => ⟨S550000, .i32⟩
  | .hbm, ⟨75, _⟩ => ⟨S550000, .i32⟩
  | .hbm, ⟨76, _⟩ => ⟨S550000x1, .i32⟩
  | .hbm, ⟨77, _⟩ => ⟨S550000x128, .f32⟩
  | .hbm, ⟨78, _⟩ => ⟨S550000x1, .f32⟩
  | .hbm, ⟨79, _⟩ => ⟨S550000x128, .f32⟩
  | .hbm, ⟨80, _⟩ => ⟨S550000x128, .f32⟩
  | .hbm, ⟨81, _⟩ => ⟨S_, .f32⟩
  | .hbm, ⟨82, _⟩ => ⟨S50000x128, .f32⟩
  | .hbm, ⟨83, _⟩ => ⟨S550000x1, .i32⟩
  | .hbm, ⟨84, _⟩ => ⟨S50000x128, .f32⟩
  | .hbm, ⟨85, _⟩ => ⟨S_, .i32⟩
  | .hbm, ⟨86, _⟩ => ⟨S550000, .i32⟩
  | .hbm, ⟨87, _⟩ => ⟨S550000, .i1⟩
  | .hbm, ⟨88, _⟩ => ⟨S_, .i32⟩
  | .hbm, ⟨89, _⟩ => ⟨S550000, .i32⟩
  | .hbm, ⟨90, _⟩ => ⟨S550000, .i32⟩
  | .hbm, ⟨91, _⟩ => ⟨S550000, .i32⟩
  | .hbm, ⟨92, _⟩ => ⟨S550000x1, .i32⟩
  | .hbm, ⟨93, _⟩ => ⟨S550000x128, .f32⟩
  | .hbm, ⟨94, _⟩ => ⟨S550000x1, .f32⟩
  | .hbm, ⟨95, _⟩ => ⟨S550000x128, .f32⟩
  | .hbm, ⟨96, _⟩ => ⟨S550000x128, .f32⟩
  | .hbm, ⟨97, _⟩ => ⟨S_, .f32⟩
  | .hbm, ⟨98, _⟩ => ⟨S50000x128, .f32⟩
  | .hbm, ⟨99, _⟩ => ⟨S550000x1, .i32⟩
  | .hbm, ⟨100, _⟩ => ⟨S50000x128, .f32⟩
  | .hbm, ⟨101, _⟩ => ⟨S50000x512, .f32⟩
  | .hbm, ⟨102, _⟩ => ⟨S50000x256, .f32⟩
  | .hbm, ⟨103, _⟩ => ⟨S1x256, .f32⟩
  | .hbm, ⟨104, _⟩ => ⟨S50000x256, .f32⟩
  | .hbm, ⟨105, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_c_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S50000 : S_.BroadcastsInDim S50000 (![] : Fin 0 → Fin S50000.rank)
  bcast_S500000_S500000x1_0 : S500000.BroadcastsInDim S500000x1 (![0] : Fin 1 → Fin S500000x1.rank)
  bcast_S_S500000 : S_.BroadcastsInDim S500000 (![] : Fin 0 → Fin S500000.rank)
  concatenates_S500000_S50000_S550000_d0 : Shape.Concatenates [S500000, S50000] S550000 0
  bcast_S_S550000 : S_.BroadcastsInDim S550000 (![] : Fin 0 → Fin S550000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x512_S512x256_S50000x256_1_0_0_1_n_n_wf : DotDims.WF S50000x512 S512x256 S50000x256 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KBBody.lean ====
/-
  The dense head's kernel body, run once: it loads the whole 5000×512 block of features, the whole 512×256
  weight block and the 256 biases, forms their product plus the bias row, and stores that over the whole
  5000×256 output block. Stated here: what the output buffer holds afterwards (the one store's value, read
  back through the block's rectangle), and the body's triple — inputs kept, output buffer at that value.
-/
import proofs.«141966_j68135361184096_1_alg».proof.Proof.Gen.Kernel.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev rFeat : Rect S5000x512 := Rect.unit (s := S5000x512) ![0, 0] S5000x512.size inb_S5000x512_S5000x512_0_0
abbrev rWeight : Rect S512x256 := Rect.unit (s := S512x256) ![0, 0] S512x256.size inb_S512x256_S512x256_0_0
abbrev rBias : Rect S256 := Rect.unit (s := S256) ![0] S256.size inb_S256_S256_0
abbrev rOut : Rect S5000x256 := Rect.unit (s := S5000x256) ![0, 0] S5000x256.size inb_S5000x256_S5000x256_0_0

/-- The output block after the body, from the three input blocks: the one store, product plus bias row,
    over the whole block. -/
def outBlock (x0 : Vec F S5000x512 .bf16) (x1 : Vec F S512x256 .bf16) (x2 : Vec F S256 .f32) : Vec F S5000x256 .f32 :=
  View.canon [⟨rOut, k0_pay1 (View.ld x0 rFeat) (View.ld x1 rWeight) (View.ld x2 rBias)⟩]

/-- The one store's rectangle is the whole block, so it covers every index of it. -/
theorem outCover (p0 : Vec F S5000x256 .f32) (y : S5000x256.Idx) :
    ∃ pc ∈ ([⟨rOut, p0⟩] : List (View.Piece (Elt F) S5000x256 .f32)), y ∈ pc.1.set :=
  View.cover_of_tiled [⟨rOut, p0⟩] S5000x256.size (by rfl) y

set_option maxHeartbeats 1000000 in
/-- The body on whole staging buffers — the three inputs at contents `x0 x1 x2`, the output at anything — runs
    to the continuation with the inputs as they were and the output at `outBlock x0 x1 x2`. The load of the
    output buffer before the store reads whatever was there and its value is not used. -/
theorem sound_kernel (c : Dev nD) (E : Set ℕ) (i : grid0.Coords)
    (arg1 : Memref sig .tc .vmem S5000x512 .bf16) (harg1 : arg1.IsWhole) (arg2 : Memref sig .tc .vmem S512x256 .bf16) (harg2 : arg2.IsWhole)
    (arg3 : Memref sig .tc .vmem S256 .f32) (harg3 : arg3.IsWhole) (arg4 : Memref sig .tc .vmem S5000x256 .f32) (harg4 : arg4.IsWhole)
    (x0 : Vec F S5000x512 .bf16) (x1 : Vec F S512x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.Kernel.Hand

end
-- ==== Proof.KBMain.lean ====
/-
  @main up to its one kernel region: ninety-nine host operations in three stretches (the normalised edge weights,
  the outlined select, then the three hops of gather · weight · scatter-add, the four-way concatenation of the
  feature blocks and the two roundings to bf16), then the region. Stated here: the TensorCore buffers as the
  region finds them, that @main is those stretches followed by the region, and that no host operation writes
  an argument array.
-/
import proofs.«141966_j68135361184096_1_alg».proof.Proof.Gen.Kernel.Launch
import Idealize.ShloMosaic.Lib.Pipeline.FrameBody
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is the three stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.KBFrame.lean ====
/-
  The frame of the program: the pipeline's proof data for the dense head (each input window's buffer holds its
  block of the array the region found; the output window's buffer holds the body's product-plus-bias of the
  three input blocks), the body's obligation at every grid point, the launch of the ten-point pipeline after
  the host operations, and from its run: every argument array ends as it began.
-/
import proofs.«141966_j68135361184096_1_alg».proof.Proof.KBBody
import proofs.«141966_j68135361184096_1_alg».proof.Proof.KBMain
import proofs.«141966_j68135361184096_1_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or its block index has not moved since the fetch: the feature rows change block at every point, the
    weights and the biases are fetched once. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the pipeline -/

/-- For any proof data whose arrays are the region-entry contents, a run to the pipeline's post read at the
    argument arrays is the frame: the node features, the edge list, the edge weights and the dense weights are
    staged by no window and are as the region found them, the bias is an input window's array and is kept; and
    no host operation wrote any of the five. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats 0 c).arrAt_in 2 rfl _).trans ((hA c 2).trans (V_main_arg4 m c)))⟩) h

/-! ## The pipeline's proof data -/

/-- On core `c`: the arrays as the region finds them; after the body at point `t` each input's buffer at its
    block and the output's at `outBlock` of the three input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIBody.lean ====
/-
  The dense head's kernel body, run once: it loads the whole 5000×512 block of features, the whole 512×256
  weight block and the 256 biases, forms their product plus the bias row, and stores that over the whole
  5000×256 output block. Stated here: what the output buffer holds afterwards (the one store's value, read
  back through the block's rectangle), and the body's triple — inputs kept, output buffer at that value.
-/
import proofs.«141966_j68135361184096_1_alg».proof.Proof.Gen.KernelIdeal.Skeleton
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each the whole of its buffer -/

abbrev rFeat : Rect S5000x512 := Rect.unit (s := S5000x512) ![0, 0] S5000x512.size inb_S5000x512_S5000x512_0_0
abbrev rWeight : Rect S512x256 := Rect.unit (s := S512x256) ![0, 0] S512x256.size inb_S512x256_S512x256_0_0
abbrev rBias : Rect S256 := Rect.unit (s := S256) ![0] S256.size inb_S256_S256_0
abbrev rOut : Rect S5000x256 := Rect.unit (s := S5000x256) ![0, 0] S5000x256.size inb_S5000x256_S5000x256_0_0

/-- The output block after the body, from the three input blocks: the one store, product plus bias row,
    over the whole block. -/
def outBlock (x0 : Vec F S5000x512 .bf16) (x1 : Vec F S512x256 .bf16) (x2 : Vec F S256 .f32) : Vec F S5000x256 .f32 :=
  View.canon [⟨rOut, k0_pay1 (View.ld x0 rFeat) (View.ld x1 rWeight) (View.ld x2 rBias)⟩]

/-- The one store's rectangle is the whole block, so it covers every index of it. -/
theorem outCover (p0 : Vec F S5000x256 .f32) (y : S5000x256.Idx) :
    ∃ pc ∈ ([⟨rOut, p0⟩] : List (View.Piece (Elt F) S5000x256 .f32)), y ∈ pc.1.set :=
  View.cover_of_tiled [⟨rOut, p0⟩] S5000x256.size (by rfl) y

set_option maxHeartbeats 1000000 in
/-- The body on whole staging buffers — the three inputs at contents `x0 x1 x2`, the output at anything — runs
    to the continuation with the inputs as they were and the output at `outBlock x0 x1 x2`. The load of the
    output buffer before the store reads whatever was there and its value is not used. -/
theorem sound_kernel (c : Dev nD) (E : Set ℕ) (i : grid0.Coords)
    (arg1 : Memref sig .tc .vmem S5000x512 .bf16) (harg1 : arg1.IsWhole) (arg2 : Memref sig .tc .vmem S512x256 .bf16) (harg2 : arg2.IsWhole)
    (arg3 : Memref sig .tc .vmem S256 .f32) (harg3 : arg3.IsWhole) (arg4 : Memref sig .tc .vmem S5000x256 .f32) (harg4 : arg4.IsWhole)
    (x0 : Vec F S5000x512 .bf16) (x1 : Vec F S512x256 .bf16) (x2 : Vec F S256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

end Cert.KernelIdeal.Hand

end
-- ==== Proof.KIMain.lean ====
/-
  @main up to its one kernel region: ninety-nine host operations in three stretches (the normalised edge weights,
  the outlined select, then the three hops of gather · weight · scatter-add, the four-way concatenation of the
  feature blocks and the two roundings to bf16), then the region. Stated here: the TensorCore buffers as the
  region finds them, that @main is those stretches followed by the region, and that no host operation writes
  an argument array.
-/
import proofs.«141966_j68135361184096_1_alg».proof.Proof.Gen.KernelIdeal.Launch
import Idealize.ShloMosaic.Lib.Pipeline.FrameBody
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is the three stretches of host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.KIFrame.lean ====
/-
  The frame of the program: the pipeline's proof data for the dense head (each input window's buffer holds its
  block of the array the region found; the output window's buffer holds the body's product-plus-bias of the
  three input blocks), the body's obligation at every grid point, the launch of the ten-point pipeline after
  the host operations, and from its run: every argument array ends as it began.
-/
import proofs.«141966_j68135361184096_1_alg».proof.Proof.KIBody
import proofs.«141966_j68135361184096_1_alg».proof.Proof.KIMain
import proofs.«141966_j68135361184096_1_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or its block index has not moved since the fetch: the feature rows change block at every point, the
    weights and the biases are fetched once. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run of the pipeline -/

/-- For any proof data whose arrays are the region-entry contents, a run to the pipeline's post read at the
    argument arrays is the frame: the node features, the edge list, the edge weights and the dense weights are
    staged by no window and are as the region found them, the bias is an input window's array and is kept; and
    no host operation wrote any of the five. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats 0 c).arrAt_in 2 rfl _).trans ((hA c 2).trans (V_main_arg4 m c)))⟩) h

/-! ## The pipeline's proof data -/

/-- On core `c`: the arrays as the region finds them; after the body at point `t` each input's buffer at its
    block and the output's at `outBlock` of the three input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) :
    (dats m 0 c).after 3 t = outBlock (iblk m c 0 t) (iblk m c 1 t) (iblk m c 2 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the proof data computes and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibDense.lean ====
/-
  Dense layers over the extended reals, index by index.

  A matrix is a function of a rank-2 index into the extended reals. `mm A B` is the textbook product: entry (a, b) is
  the sum over the shared coordinate c of A (a, c) · B (c, b). `biasRelu z A β` adds the entry β c to every row of A at
  column c and takes the larger of the result and z (the rectifier when z is zero). `plusScalar X s` adds one number to
  every entry. `rowBlock R t A` is the block of R consecutive rows of A that starts at row t · R, all columns kept.

  Facts proved here:
  * the kernel's matrix product into a zero accumulator and the host's plain dot_general are both `mm`, at the exact
    arithmetic of the extended reals (the sum over the contracted coordinate written over its range of numbers);
  * each of the three layers acts row by row, so it commutes with taking a block of rows: a layer of a row block is the
    row block of the layer. That is what lets a product computed block of rows by block of rows be read as ONE product;
  * every row of a matrix of M rows lies in exactly the block t = row / R when R divides the rows evenly.
-/
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.Dense

open Idealize.ShloMosaic Idealize.ShloMosaic.ValueIdx

/-- A matrix of extended reals with `m` rows and `n` columns. -/
abbrev Mat (m n : Nat) := FVec Ideal ⟨2, ![m, n]⟩ .f32

variable {m k n : Nat}

/-- The product of an m×k and a k×n matrix: entry (a, b) is ∑_c A (a, c) · B (c, b). -/
def mm (A : Mat m k) (B : Mat k n) : Mat m n :=
  fun i => ∑ c : Fin k, A (ix2 (i 0 : Fin m) c) * B (ix2 c (i 1 : Fin n))

theorem mm_apply (A : Mat m k) (B : Mat k n) (a : Fin m) (b : Fin n) :
    mm A B (ix2 a b) = ∑ c : Fin k, A (ix2 a c) * B (ix2 c b) := rfl

/-- Row a of A, shifted by β along the columns, then bounded below by z. -/
def biasRelu (z : Ideal .f32) (A : Mat m k) (β : Fin k → Ideal .f32) : Mat m k :=
  fun j => max (A j + β (j 1 : Fin k)) z

/-- One number added to every entry. -/
def plusScalar (X : Mat m n) (s : Ideal .f32) : Mat m n := fun i => X i + s

/-- The host's plain dot_general is the product, entry by entry. -/
theorem dotGeneral_plain_eq_mm {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The kernel's plain matrix product accumulated into zeros is the product, entry by entry. -/
theorem matmul_plain_zero_eq_mm {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32) = mm A B :=
  (matmul_zero_eq_dotGeneral _ _ _ _).trans (dotGeneral_plain_eq_mm _ _ _)

/-! ## The kernel's spellings of the layers -/

/-- A one-row matrix laid along every row, read at an entry: the row's entry in that column. -/
theorem broadcastTo_oneRow_apply {α : Type} (x : (⟨2, ![1, n]⟩ : Shape).Idx → α)
    (hb : (⟨2, ![1, n]⟩ : Shape).Broadcasts ⟨2, ![m, n]⟩) (j : (⟨2, ![m, n]⟩ : Shape).Idx) :
    broadcastTo ⟨2, ![m, n]⟩ x hb j = x (ix2 (0 : Fin 1) (j 1 : Fin n)) := by
  refine broadcastTo_apply x hb j (ix2 (0 : Fin 1) (j 1 : Fin n)) ?_
  intro a
  match a with
  | ⟨0, _⟩ => rfl
  | ⟨1, _⟩ =>
    show (j 1).val = if n = 1 then 0 else (j 1).val
    split
    · have := (j 1).isLt; have e : (j 1).val < n := this; omega
    · rfl

/-- A vector of `n` entries reshaped to one row, read at an entry: the vector's entry of that column. -/
theorem shapeCast_row_apply {α : Type} (x : (⟨1, ![n]⟩ : Shape).Idx → α)
    (h : (⟨1, ![n]⟩ : Shape).ShapeCasts ⟨2, ![1, n]⟩) (b : Fin n) :
    shapeCast ⟨2, ![1, n]⟩ x h (ix2 (0 : Fin 1) b) = x (ix1 b) :=
  shapeCast_apply x h (ix2 (0 : Fin 1) b) (ix1 b) (by
    rw [Shape.rowMajor_val_one, Shape.rowMajor_val_two]
    show b.val = 0 * n + b.val
    omega)

/-- A block plus a one-row bias laid along its rows, bounded below by the splat of one word, is `biasRelu`. -/
theorem biasRelu_of_broadcast (A : Mat m k) (v : FVec Ideal ⟨2, ![1, k]⟩ .f32)
    (hb : (⟨2, ![1, k]⟩ : Shape).Broadcasts ⟨2, ![m, k]⟩) (z : BitVec 32) :
    maximumf (addf A (broadcastTo ⟨2, ![m, k]⟩ v hb)) (broadcast ⟨2, ![m, k]⟩ (Scalar.ofBits (F := Ideal) .f32 z))
      = biasRelu (Ideal.ofBits .f32 z) A (fun c => v (ix2 (0 : Fin 1) c)) := by
  funext j
  show max (A j + broadcastTo ⟨2, ![m, k]⟩ v hb j) _ = max (A j + v (ix2 (0 : Fin 1) (j 1 : Fin k))) _
  rw [broadcastTo_oneRow_apply]
  rfl

/-- A one-column block plus the splat of a one-entry matrix along its rows is `plusScalar`. -/
theorem plusScalar_of_broadcast (X : Mat m 1) (v : FVec Ideal ⟨2, ![1, 1]⟩ .f32)
    (hb : (⟨2, ![1, 1]⟩ : Shape).Broadcasts ⟨2, ![m, 1]⟩) :
    addf X (broadcastTo ⟨2, ![m, 1]⟩ v hb) = plusScalar X (v (ix2 (0 : Fin 1) (0 : Fin 1))) := by
  funext j
  show X j + broadcastTo ⟨2, ![m, 1]⟩ v hb j = X j + v (ix2 (0 : Fin 1) (0 : Fin 1))
  rw [broadcastTo_oneRow_apply]
  have e : (j 1 : Fin 1) = (0 : Fin 1) :=
    Fin.ext (by have := (j 1).isLt; have e' : (j 1).val < 1 := this; show (j 1).val = 0; omega)
  rw [e]

/-! ## Blocks of rows -/

/-- Rows t·R … t·R + R − 1 of a matrix of M rows (they exist: `h`), every column. -/
def rowBlock {M : Nat} (R t : Nat) (h : t * R + R ≤ M) (A : Mat M k) : Mat R k :=
  fun y => A (ix2 (⟨t * R + (y 0).val, by have := (y 0).isLt; have e : (y 0).val < R := this; omega⟩ : Fin M) (y 1 : Fin k))

variable {M : Nat} (R t : Nat) (h : t * R + R ≤ M)

/-- The product acts row by row: the product of a block of rows is that block of rows of the product. -/
theorem mm_rowBlock (A : Mat M k) (B : Mat k n) : mm (rowBlock R t h A) B = rowBlock R t h (mm A B) := rfl

theorem biasRelu_rowBlock (z : Ideal .f32) (A : Mat M k) (β : Fin k → Ideal .f32) :
    biasRelu z (rowBlock R t h A) β = rowBlock R t h (biasRelu z A β) := rfl

theorem plusScalar_rowBlock (X : Mat M n) (s : Ideal .f32) :
    plusScalar (rowBlock R t h X) s = rowBlock R t h (plusScalar X s) := rfl

end Cert.Dense

end
-- ==== Proof.DenseSpec.lean ====
/-
  The dense head as one function of whole arrays: entry (r, c) of the result is the sum over the 512 shared
  coordinates k of H (r, k) · W (k, c), plus the bias entry β c. Both programs are proved to end at this function
  of the same three arrays; nothing here depends on how either computes it.
-/
import proofs.«141966_j68135361184096_1_alg».proof.Proof.LibDense

noncomputable section

namespace Cert.DenseHead

open Idealize.ShloMosaic Idealize.ShloMosaic.ValueIdx Cert.Dense

/-- Product plus bias along the rows, for a feature matrix of any number M of rows. -/
def denseOut {M : Nat} (H : Mat M 512) (W : Mat 512 256) (β : FVec Ideal ⟨1, ![256]⟩ .f32) : Mat M 256 :=
  fun i => mm H W i + β (ix1 (i 1 : Fin 256))

theorem denseOut_apply {M : Nat} (H : Mat M 512) (W : Mat 512 256) (β : FVec Ideal ⟨1, ![256]⟩ .f32)
    (i : (⟨2, ![M, 256]⟩ : Shape).Idx) :
    denseOut H W β i = (∑ k : Fin 512, H (ix2 (i 0 : Fin M) k) * W (ix2 k (i 1 : Fin 256))) + β (ix1 (i 1 : Fin 256)) := rfl

end Cert.DenseHead

end
-- ==== Proof.KIValue.lean ====
/-
  What the dense head leaves in its output array, at the exact arithmetic of the extended reals. Grid point t
  computes rows 5000·t … 5000·t + 4999 of the product of the 50000×512 feature matrix with the 512×256 weight
  matrix and adds the bias entry of each column; the product acts row by row, so the ten blocks are the ten row
  blocks of ONE product plus bias, and they tile the 50000 rows. Hence the array ends at product plus bias.
-/
import proofs.«141966_j68135361184096_1_alg».proof.Proof.KIFrame
import proofs.«141966_j68135361184096_1_alg».proof.Proof.DenseSpec
import Idealize.ShloMosaic.Lib.ValueIdx
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Dense Cert.DenseHead
open Idealize.ShloMosaic Idealize.ShloMosaic.TcCoe Idealize.ShloMosaic.ValueIdx Idealize.SL.Sem
open Idealize.ShloMosaic.Pipeline (Dat)

/-- The kernel's contraction is the plain one: rows of the left operand against columns of the right. -/
theorem dot_plain : dot_S5000x512_S512x256_S5000x256_1_0_0_1_n_n = DotDims.plain 5000 512 256 := rfl

/-- One block: the body's stored value is product plus bias of the three loaded blocks, entry by entry (the two
    identity reshapes drop, the product into zeros is the textbook product, the bias is laid along every row). -/
theorem payload_eq (x0 : Vec Ideal S5000x512 .bf16) (x1 : Vec Ideal S512x256 .bf16) (x2 : Vec Ideal S256 .f32) :
    k0_pay1 (F := Ideal) x0 x1 x2 = denseOut (M := 5000) x0 x1 x2 := by
  unfold k0_pay1
  dsimp only
  rw [shapeCast_self, shapeCast_self, dot_plain, matmul_plain_zero_eq_mm]
  funext j
  obtain ⟨a, b, rfl⟩ : ∃ (a : Fin 5000) (b : Fin 256), j = ix2 a b := ⟨j 0, j 1, eq_ix2 j⟩
  refine congrArg (fun z => mm x0 x1 (ix2 a b) + z) ?_
  exact (broadcastTo_oneRow_apply (m := 5000) (n := 256) _ _ (ix2 a b)).trans (shapeCast_row_apply x2 _ b)

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten points: features and output move one block of rows per point, the weights and
    the bias stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem point_lt (t : Fin cfg0.N) : t.val < 10 := Nat.lt_of_lt_of_eq t.isLt N_0

/-- Row a of point t's block is row 5000·t + a of the array. -/
def rowOf (t : Fin cfg0.N) (a : Fin 5000) : Fin 50000 :=
  ⟨t.val * 5000 + a.val, by have := point_lt t; have := a.isLt; omega⟩

variable (m : (ℓ : Loc nD τ sig) → Buf (Elt Ideal) ℓ) (ρ : Dev nD → PrngReg)

/-! The three arrays as the region finds them and their blocks at a point, each named at its literal type. -/

abbrev featArr (c : Dev nD) : Mat 50000 512 := V m c main_v76
abbrev weightArr (c : Dev nD) : Mat 512 256 := V m c main_v77
abbrev biasArr (c : Dev nD) : FVec Ideal ⟨1, ![256]⟩ .f32 := V m c main_arg4
abbrev featBlk (c : Dev nD) (t : Fin cfg0.N) : Mat 5000 512 := iblk m c 0 t
abbrev weightBlk (c : Dev nD) (t : Fin cfg0.N) : Mat 512 256 := iblk m c 1 t
abbrev biasBlk (c : Dev nD) (t : Fin cfg0.N) : FVec Ideal ⟨1, ![256]⟩ .f32 := iblk m c 2 t

/-- Point t's feature block is rows 5000·t … of the feature array, all 512 columns. -/
theorem featBlk_apply (c : Dev nD) (t : Fin cfg0.N) (a : Fin 5000) (k : Fin 512) :
    featBlk m c t (ix2 a k) = featArr m c (ix2 (rowOf t a) k) := by
  obtain ⟨e0, e1, e2, e3, e4, e5, e6⟩ := idx_facts t
  show V m c main_v76 (((cfg0.win 0).blk t).view.emb (ix2 a k)) = V m c main_v76 (ix2 (rowOf t a) k)
  refine congrArg (V m c main_v76) ?_
  funext d; apply Fin.ext
  match d with
  | ⟨0, _⟩ => show win0_0.index t (0 : Fin 2) * 5000 + 1 * a.val = t.val * 5000 + a.val; omega
  | ⟨1, _⟩ => show win0_0.index t (1 : Fin 2) * 512 + 1 * k.val = k.val; omega

/-- Every point's weight block is the whole weight array. -/
theorem weightBlk_apply (c : Dev nD) (t : Fin cfg0.N) (k : Fin 512) (b : Fin 256) :
    weightBlk m c t (ix2 k b) = weightArr m c (ix2 k b) := by
  obtain ⟨e0, e1, e2, e3, e4, e5, e6⟩ := idx_facts t
  show V m c main_v77 (((cfg0.win 1).blk t).view.emb (ix2 k b)) = V m c main_v77 (ix2 k b)
  refine congrArg (V m c main_v77) ?_
  funext d; apply Fin.ext
  match d with
  | ⟨0, _⟩ => show win0_1.index t (0 : Fin 2) * 512 + 1 * k.val = k.val; omega
  | ⟨1, _⟩ => show win0_1.index t (1 : Fin 2) * 256 + 1 * b.val = b.val; omega

/-- Every point's bias block is the whole bias array. -/
theorem biasBlk_apply (c : Dev nD) (t : Fin cfg0.N) (b : Fin 256) :
    biasBlk m c t (ix1 b) = biasArr m c (ix1 b) := by
  obtain ⟨e0, e1, e2, e3, e4, e5, e6⟩ := idx_facts t
  show V m c main_arg4 (((cfg0.win 2).blk t).view.emb (ix1 b)) = V m c main_arg4 (ix1 b)
  refine congrArg (V m c main_arg4) ?_
  funext d; apply Fin.ext
  match d with
  | ⟨0, _⟩ => show win0_2.index t (0 : Fin 1) * 256 + 1 * b.val = b.val; omega

/-- Entry (a, b) of point t's output block is entry (5000·t + a, b) of the output array. -/
theorem outEmb (t : Fin cfg0.N) (a : Fin 5000) (b : Fin 256) :
    ((cfg0.win 3).blk t).view.emb (ix2 a b) = ix2 (rowOf t a) b := by
  obtain ⟨e0, e1, e2, e3, e4, e5, e6⟩ := idx_facts t
  funext d; apply Fin.ext
  match d with
  | ⟨0, _⟩ => show win0_3.index t (0 : Fin 2) * 5000 + 1 * a.val = t.val * 5000 + a.val; omega
  | ⟨1, _⟩ => show win0_3.index t (1 : Fin 2) * 256 + 1 * b.val = b.val; omega

/-- Row by row: entry (a, b) of product-plus-bias of point t's blocks is entry (5000·t + a, b) of
    product-plus-bias of the whole arrays. -/
theorem block_rows (c : Dev nD) (t : Fin cfg0.N) (a : Fin 5000) (b : Fin 256) :
    denseOut (M := 5000) (featBlk m c t) (weightBlk m c t) (biasBlk m c t) (ix2 a b)
      = denseOut (M := 50000) (featArr m c) (weightArr m c) (biasArr m c) (ix2 (rowOf t a) b) := by
  show (∑ k : Fin 512, featBlk m c t (ix2 a k) * weightBlk m c t (ix2 k b)) + biasBlk m c t (ix1 b)
    = (∑ k : Fin 512, featArr m c (ix2 (rowOf t a) k) * weightArr m c (ix2 k b)) + biasArr m c (ix1 b)
  rw [biasBlk_apply]
  refine congrArg (fun z => z + biasArr m c (ix1 b)) ?_
  exact Finset.sum_congr rfl fun k _ => by rw [featBlk_apply, weightBlk_apply]

set_option maxHeartbeats 1000000 in
/-- What point t writes back is block t of product-plus-bias of the three arrays as the region finds them. -/
theorem flushed_eq (c : Dev nD) (t : Fin cfg0.N) :
    (dats m 0 c).flushed 3 t = ((cfg0.win 3).blk t).view.read (Elt Ideal)
      (denseOut (M := 50000) (featArr m c) (weightArr m c) (biasArr m c)) := by
  show (cfg0.win 3).cut (grid0.coords t) ((dats m 0 c).after 3 t) = _
  rw [after_out]
  unfold outBlock
  rw [View.canon_unit_zero hz2]
  simp only [View.ld_unit_zero (S := S5000x512) hz2, View.ld_unit_zero (S := S512x256) hz2, View.ld_unit_zero (S := S256) hz1]
  rw [payload_eq]
  funext j
  obtain ⟨a, b, rfl⟩ : ∃ (a : Fin 5000) (b : Fin 256), j = ix2 a b := ⟨j 0, j 1, eq_ix2 j⟩
  show denseOut (M := 5000) (featBlk m c t) (weightBlk m c t) (biasBlk m c t) (ix2 a b)
    = denseOut (M := 50000) (featArr m c) (weightArr m c) (biasArr m c) (((cfg0.win 3).blk t).view.emb (ix2 a b))
  rw [outEmb]
  exact block_rows m c t a b

/-- An index of the output array is in point t's block iff its row lies in that block of 5000 rows. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v78).slice (win0_3.rect t)).set ↔ _
  rw [View.set_slice_whole, Rect.mem_set_unit]
  exact Iff.rfl

/-- Every point is one of the ten, and each number below ten is a point. -/
theorem point_of (q : Nat) (hq : q < 10) : ∃ t : Fin cfg0.N, t.val = q := ⟨⟨q, by rw [show cfg0.N = 10 from N_0]; exact hq⟩, rfl⟩

/-- The ten blocks tile the array: row r lies in the block of point r / 5000. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := point_of ((i 0).val / 5000) (by omega)
  obtain ⟨e0, e1, e2, e3, e4, e5, e6⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- The output array after the run: product plus bias of the arrays the region found. -/
theorem final (c : Dev nD) : (dats m 0 c).arrAt 3 cfg0.N
    = denseOut (M := 50000) (V m c main_v76) (V m c main_v77) (V m c main_arg4) :=
  (dats m 0 c).arrAt_eq_of_cover 3 _ (fun t _ => flushed_eq m c t) cover

end Cert.KernelIdeal.HandValue

end
-- ==== Proof.KIHost.lean ====
/-
  What the region finds in its feature and weight arrays. The ninety-nine host operations before the region are
  ninety-six that build the three propagated feature blocks — the same operations, on the same arguments, as the
  reference's first ninety-six, so each block is the reference's stage of that name —, then three: the four-way
  concatenation and the two roundings to bf16. The three are read over whatever the ninety-six left; each block is
  read off the whole list, where the concatenation is only passed over. At the exact arithmetic of the extended
  reals the rounding is the identity.
-/
import proofs.«141966_j68135361184096_1_alg».proof.Proof.KIMain
import proofs.«141966_j68135361184096_1_alg».proof.Proof.RefRead
import Idealize.ShloMosaic.Lib.StableHlo.Run
import Idealize.ShloMosaic.Lib.Pipeline.Frame

set_option maxRecDepth 16384

noncomputable section

namespace Cert.KernelIdeal.HandHost

open Cert.KernelIdeal Cert.KernelIdeal.Gen Cert.KernelIdeal.Hand
open Idealize.ShloMosaic Idealize.ShloMosaic.TcCoe Idealize.SL.Sem Idealize.ShloMosaic.StableHlo

section AnyFloats

variable {F : FTy → Type} [FloatOps F]

/-- All the host operations before the region, in order. -/
abbrev hostAll : List (HloOp τ sig (Elt F)) := List.flatten [hostOps0, hostOps0_1, hostOps0_2]

/-- The last three: the concatenation of the four feature blocks and the two roundings to bf16. -/
abbrev hostTail : List (HloOp τ sig (Elt F)) :=
  [ StableHlo.nary ![main_arg0, main_v48, main_v61, main_v74] main_v75 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.unary main_v75 main_v76 ((truncf .bf16 · bitsLt_bf16_f32) : (⟨S50000x512, .f32⟩ : BufTy).Contents (Elt F) → (⟨S50000x512, .bf16⟩ : BufTy).Contents (Elt F)),
    StableHlo.unary main_arg3 main_v77 ((truncf .bf16 · bitsLt_bf16_f32) : (⟨S512x256, .f32⟩ : BufTy).Contents (Elt F) → (⟨S512x256, .bf16⟩ : BufTy).Contents (Elt F)) ]

theorem host_split : (hostAll : List (HloOp τ sig (Elt F))) = hostAll.take 96 ++ hostTail :=
  (List.take_append_drop 96 hostAll).symm

/-- The three, over whatever valuation they start from. -/
theorem tail_feat (W : Valuation τ sig (Elt F)) :
    after hostTail W (Proc.devRef .tc main_v76)
      = truncf .bf16 (concatenate S50000x512 1 [⟨S50000x128, W (Proc.devRef .tc main_arg0)⟩, ⟨S50000x128, W (Proc.devRef .tc main_v48)⟩,
          ⟨S50000x128, W (Proc.devRef .tc main_v61)⟩, ⟨S50000x128, W (Proc.devRef .tc main_v74)⟩]
          concatenates_S50000x128_S50000x128_S50000x128_S50000x128_S50000x512_d1) bitsLt_bf16_f32 := by
  after_results
  rfl

theorem tail_weight (W : Valuation τ sig (Elt F)) :
    after hostTail W (Proc.devRef .tc main_v77) = truncf .bf16 (W (Proc.devRef .tc main_arg3)) bitsLt_bf16_f32 := by
  after_results

theorem keep_arg0 (W : Valuation τ sig (Elt F)) : after hostTail W (Proc.devRef .tc main_arg0) = W (Proc.devRef .tc main_arg0) := by
  after_results_simp
theorem keep_v48 (W : Valuation τ sig (Elt F)) : after hostTail W (Proc.devRef .tc main_v48) = W (Proc.devRef .tc main_v48) := by
  after_results_simp
theorem keep_v61 (W : Valuation τ sig (Elt F)) : after hostTail W (Proc.devRef .tc main_v61) = W (Proc.devRef .tc main_v61) := by
  after_results_simp
theorem keep_v74 (W : Valuation τ sig (Elt F)) : after hostTail W (Proc.devRef .tc main_v74) = W (Proc.devRef .tc main_v74) := by
  after_results_simp
theorem keep_arg3 (W : Valuation τ sig (Elt F)) : after hostTail W (Proc.devRef .tc main_arg3) = W (Proc.devRef .tc main_arg3) := by
  after_results_simp

variable (m : (ℓ : Loc nD τ sig) → Buf (Elt F) ℓ)

/-! Each feature block, read off the whole list: the reference's stage of the same arguments. -/
set_option maxHeartbeats 40000000 in
theorem at_v48 (c : Dev nD) : after (hostAll (F := F)) (fun b => m (c, b)) (Proc.devRef .tc main_v48)
    = Cert.ReferenceIdeal.Read.val_main_v48 (F := F) (m ((c : Thread nD τ).loc main_arg0)) (m ((c : Thread nD τ).loc main_arg1)) (m ((c : Thread nD τ).loc main_arg2)) := by
  simp only [hostAll, hostOps0, hostOps0_1, hostOps0_2, List.flatten_cons, List.flatten_nil, List.append_nil, List.cons_append,
    List.nil_append]
  after_results_simp <;> rfl
set_option maxHeartbeats 40000000 in
theorem at_v61 (c : Dev nD) : after (hostAll (F := F)) (fun b => m (c, b)) (Proc.devRef .tc main_v61)
    = Cert.ReferenceIdeal.Read.val_main_v61 (F := F) (m ((c : Thread nD τ).loc main_arg0)) (m ((c : Thread nD τ).loc main_arg1)) (m ((c : Thread nD τ).loc main_arg2)) := by
  simp only [hostAll, hostOps0, hostOps0_1, hostOps0_2, List.flatten_cons, List.flatten_nil, List.append_nil, List.cons_append,
    List.nil_append]
  after_results_simp <;> rfl
set_option maxHeartbeats 40000000 in
theorem at_v74 (c : Dev nD) : after (hostAll (F := F)) (fun b => m (c, b)) (Proc.devRef .tc main_v74)
    = Cert.ReferenceIdeal.Read.val_main_v74 (F := F) (m ((c : Thread nD τ).loc main_arg0)) (m ((c : Thread nD τ).loc main_arg1)) (m ((c : Thread nD τ).loc main_arg2)) := by
  simp only [hostAll, hostOps0, hostOps0_1, hostOps0_2, List.flatten_cons, List.flatten_nil, List.append_nil, List.cons_append,
    List.nil_append]
  after_results_simp <;> rfl

theorem host_after (c : Dev nD) : after (hostAll (F := F)) (fun b => m (c, b))
    = after hostTail (after (hostAll.take 96) (fun b => m (c, b))) :=
  (congrArg (fun l => after l (fun b => m (c, b))) host_split).trans (StableHlo.after_append _ _ _)

/-- At any reading of the floats: the feature array the region finds is the bf16 rounding of the reference's
    concatenated features of the same three arguments. -/
theorem V_feat_any (c : Dev nD) : V m c main_v76
    = truncf .bf16 (Cert.ReferenceIdeal.Read.val_main_v75 (F := F) (m ((c : Thread nD τ).loc main_arg0)) (m ((c : Thread nD τ).loc main_arg1)) (m ((c : Thread nD τ).loc main_arg2))) bitsLt_bf16_f32 := by
  show after (hostAll (F := F)) (fun b => m (c, b)) (Proc.devRef .tc main_v76) = _
  have hs := host_after m c
  have a0 : after (hostAll (F := F)) (fun b => m (c, b)) (Proc.devRef .tc main_arg0) = m ((c : Thread nD τ).loc main_arg0) := V_main_arg0 m c
  generalize after (List.take 96 (hostAll (F := F))) (fun b => m (c, b)) = W at hs
  have k_arg0 : W (Proc.devRef .tc main_arg0) = after (hostAll (F := F)) (fun b => m (c, b)) (Proc.devRef .tc main_arg0) := by
    rw [hs]; exact (keep_arg0 W).symm
  have k_v48 : W (Proc.devRef .tc main_v48) = after (hostAll (F := F)) (fun b => m (c, b)) (Proc.devRef .tc main_v48) := by
    rw [hs]; exact (keep_v48 W).symm
  have k_v61 : W (Proc.devRef .tc main_v61) = after (hostAll (F := F)) (fun b => m (c, b)) (Proc.devRef .tc main_v61) := by
    rw [hs]; exact (keep_v61 W).symm
  have k_v74 : W (Proc.devRef .tc main_v74) = after (hostAll (F := F)) (fun b => m (c, b)) (Proc.devRef .tc main_v74) := by
    rw [hs]; exact (keep_v74 W).symm
  rw [hs, tail_feat, k_arg0, k_v48, k_v61, k_v74, a0, at_v48, at_v61, at_v74]
  rfl

/-- The weight array the region finds is the bf16 rounding of the weight argument. -/
theorem V_weight_any (c : Dev nD) : V m c main_v77 = truncf .bf16 (m ((c : Thread nD τ).loc main_arg3)) bitsLt_bf16_f32 := by
  show after (hostAll (F := F)) (fun b => m (c, b)) (Proc.devRef .tc main_v77) = _
  have hs := host_after m c
  have a3 : after (hostAll (F := F)) (fun b => m (c, b)) (Proc.devRef .tc main_arg3) = m ((c : Thread nD τ).loc main_arg3) := V_main_arg3 m c
  generalize after (List.take 96 (hostAll (F := F))) (fun b => m (c, b)) = W at hs
  have k_arg3 : W (Proc.devRef .tc main_arg3) = after (hostAll (F := F)) (fun b => m (c, b)) (Proc.devRef .tc main_arg3) := by
    rw [hs]; exact (keep_arg3 W).symm
  rw [hs, tail_weight, k_arg3, a3]

end AnyFloats

variable (m : (ℓ : Loc nD τ sig) → Buf (Elt Ideal) ℓ)

/-- At the extended reals the rounding is the identity: the features are the reference's concatenated features. -/
theorem V_feat (c : Dev nD) : V m c main_v76
    = Cert.ReferenceIdeal.Read.val_main_v75 (F := Ideal) (m ((c : Thread nD τ).loc main_arg0)) (m ((c : Thread nD τ).loc main_arg1)) (m ((c : Thread nD τ).loc main_arg2)) :=
  (V_feat_any m c).trans rfl

/-- and the weights are the weight argument. -/
theorem V_weight (c : Dev nD) : V m c main_v77 = m ((c : Thread nD τ).loc main_arg3) :=
  (V_weight_any m c).trans rfl

end Cert.KernelIdeal.HandHost

end
-- ==== Proof.KIRun.lean ====
/-
  The idealized kernel's run, read: every weakly fair execution ends with the result array at product plus bias of
  the reference's concatenated features of the arguments, the weight argument and the bias argument, and with the
  five argument arrays unchanged.
-/
import proofs.«141966_j68135361184096_1_alg».proof.Proof.KIValue
import proofs.«141966_j68135361184096_1_alg».proof.Proof.KIHost

set_option maxRecDepth 16384

noncomputable section

namespace Cert.KernelIdeal.HandRun

open Cert.KernelIdeal Cert.KernelIdeal.Gen Cert.KernelIdeal.Hand Cert.KernelIdeal.HandValue Cert.KernelIdeal.HandHost
open Cert.Dense Cert.DenseHead
open Idealize.ShloMosaic Idealize.ShloMosaic.TcCoe Idealize.SL.Sem

variable (m : (ℓ : Loc nD τ sig) → Buf (Elt Ideal) ℓ) (ρ : Dev nD → PrngReg)

/-- The output array after the run, as a function of the arguments alone. -/
theorem result (c : Dev nD) : (dats m 0 c).arrAt 3 cfg0.N
    = denseOut (M := 50000)
        (Cert.ReferenceIdeal.Read.val_main_v75 (F := Ideal) (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) := by
  rw [final, V_feat, V_weight, V_main_arg4]

theorem run : θ_run defs (onTc (τ := τ) (main (F := Ideal))) ⟨m, fun _ => 0, ρ⟩ (fun r => ∀ c : Dev nD,
      r.2.mem ((c.tc : Thread nD τ).loc main_v78) = denseOut (M := 50000)
        (Cert.ReferenceIdeal.Read.val_main_v75 (F := Ideal) (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).1 3).trans (result m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c)))⟩)
    (run_main m ρ)

end Cert.KernelIdeal.HandRun

end
-- ==== Proof.RefRunHand.lean ====
/-
  The reference's run, read over its stages. Its hundred and one host operations are ninety-six that build the three
  propagated feature blocks, then five: the four-way concatenation, the product with the weights, the bias laid as
  one row and then along the rows, the sum. The five are read over whatever the ninety-six left (a short
  computation); each feature block is read off the whole list, where the concatenation is only ever passed over,
  never opened. So the result is the last stage of the stages' chain applied to the five arguments.
-/
import proofs.«141966_j68135361184096_1_alg».proof.Proof.RefRun
import proofs.«141966_j68135361184096_1_alg».proof.Proof.RefRead
import Idealize.ShloMosaic.Lib.Pipeline.Frame

set_option maxRecDepth 16384

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- No operation of @main allocates: each determines its result. -/
theorem ops_fresh : (ops : List (HloOp τ sig (Elt F))).Forall fun op => op.fresh = ∅ := by
  simp only [List.Forall]; repeat' constructor

/-- The last five operations: concatenation, product, the bias as one row, the bias along the rows, the sum. -/
abbrev opsTail : List (HloOp τ sig (Elt F)) :=
  [
    nary ![main_arg0, main_v48, main_v61, main_v74] main_v75 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    binary main_v75 main_arg3 main_v76 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_arg4 main_v77 (broadcastInDim S1x256 ![1] bcast_S256_S1x256_1 : (⟨S256, .f32⟩ : BufTy).Contents (Elt F) → (⟨S1x256, .f32⟩ : BufTy).Contents (Elt F)),
    unary main_v77 main_v78 (broadcastInDim S50000x256 ![0, 1] bcast_S1x256_S50000x256_0_1 : (⟨S1x256, .f32⟩ : BufTy).Contents (Elt F) → (⟨S50000x256, .f32⟩ : BufTy).Contents (Elt F)),
    binary main_v76 main_v78 main_v79 (addf : (⟨S50000x256, .f32⟩ : BufTy).Contents (Elt F) → (⟨S50000x256, .f32⟩ : BufTy).Contents (Elt F) → (⟨S50000x256, .f32⟩ : BufTy).Contents (Elt F)) ]

/-- @main's operations are the first ninety-six followed by those five. -/
theorem ops_split : (ops : List (HloOp τ sig (Elt F))) = ops.take 96 ++ opsTail :=
  (List.take_append_drop 96 ops).symm

/-- The five, over whatever valuation they start from: product of the concatenated blocks with the weights, plus
    the bias laid along the rows. -/
theorem tail_result (W : Valuation τ sig (Elt F)) :
    after opsTail W (Proc.devRef .tc main_v79)
      = addf (Host.dotGeneral dot_S50000x512_S512x256_S50000x256_1_0_0_1_n_n none
          (concatenate S50000x512 1 [⟨S50000x128, W (Proc.devRef .tc main_arg0)⟩, ⟨S50000x128, W (Proc.devRef .tc main_v48)⟩,
            ⟨S50000x128, W (Proc.devRef .tc main_v61)⟩, ⟨S50000x128, W (Proc.devRef .tc main_v74)⟩]
            concatenates_S50000x128_S50000x128_S50000x128_S50000x128_S50000x512_d1)
          (W (Proc.devRef .tc main_arg3)))
        (broadcastInDim S50000x256 ![0, 1] bcast_S1x256_S50000x256_0_1
          (broadcastInDim S1x256 ![1] bcast_S256_S1x256_1 (W (Proc.devRef .tc main_arg4)))) := by
  after_results
  rfl

/-! The five write none of the buffers they read from before them. -/
theorem keep_arg0 (W : Valuation τ sig (Elt F)) : after opsTail W (Proc.devRef .tc main_arg0) = W (Proc.devRef .tc main_arg0) := by
  after_results_simp
theorem keep_v48 (W : Valuation τ sig (Elt F)) : after opsTail W (Proc.devRef .tc main_v48) = W (Proc.devRef .tc main_v48) := by
  after_results_simp
theorem keep_v61 (W : Valuation τ sig (Elt F)) : after opsTail W (Proc.devRef .tc main_v61) = W (Proc.devRef .tc main_v61) := by
  after_results_simp
theorem keep_v74 (W : Valuation τ sig (Elt F)) : after opsTail W (Proc.devRef .tc main_v74) = W (Proc.devRef .tc main_v74) := by
  after_results_simp
theorem keep_arg3 (W : Valuation τ sig (Elt F)) : after opsTail W (Proc.devRef .tc main_arg3) = W (Proc.devRef .tc main_arg3) := by
  after_results_simp
theorem keep_arg4 (W : Valuation τ sig (Elt F)) : after opsTail W (Proc.devRef .tc main_arg4) = W (Proc.devRef .tc main_arg4) := by
  after_results_simp

variable (m : (ℓ : Loc nD τ sig) → Buf (Elt F) ℓ)

/-! Each feature block, and each argument, read off the whole list of operations. -/
set_option maxHeartbeats 40000000 in
theorem at_v48 (c : Dev nD) : after (ops (F := F)) (launchContents m c) (Proc.devRef .tc main_v48)
    = val_main_v48 (F := F) (m ((c.tc : Thread nD τ).loc main_arg0)) (m ((c.tc : Thread nD τ).loc main_arg1)) (m ((c.tc : Thread nD τ).loc main_arg2)) := by
  after_results_simp <;> rfl
set_option maxHeartbeats 40000000 in
theorem at_v61 (c : Dev nD) : after (ops (F := F)) (launchContents m c) (Proc.devRef .tc main_v61)
    = val_main_v61 (F := F) (m ((c.tc : Thread nD τ).loc main_arg0)) (m ((c.tc : Thread nD τ).loc main_arg1)) (m ((c.tc : Thread nD τ).loc main_arg2)) := by
  after_results_simp <;> rfl
set_option maxHeartbeats 40000000 in
theorem at_v74 (c : Dev nD) : after (ops (F := F)) (launchContents m c) (Proc.devRef .tc main_v74)
    = val_main_v74 (F := F) (m ((c.tc : Thread nD τ).loc main_arg0)) (m ((c.tc : Thread nD τ).loc main_arg1)) (m ((c.tc : Thread nD τ).loc main_arg2)) := by
  after_results_simp <;> rfl
set_option maxHeartbeats 40000000 in
theorem at_arg0 (c : Dev nD) : after (ops (F := F)) (launchContents m c) (Proc.devRef .tc main_arg0)
    = m ((c.tc : Thread nD τ).loc main_arg0) := by
  after_results_simp <;> rfl
set_option maxHeartbeats 40000000 in
theorem at_arg1 (c : Dev nD) : after (ops (F := F)) (launchContents m c) (Proc.devRef .tc main_arg1)
    = m ((c.tc : Thread nD τ).loc main_arg1) := by
  after_results_simp <;> rfl
set_option maxHeartbeats 40000000 in
theorem at_arg2 (c : Dev nD) : after (ops (F := F)) (launchContents m c) (Proc.devRef .tc main_arg2)
    = m ((c.tc : Thread nD τ).loc main_arg2) := by
  after_results_simp <;> rfl
set_option maxHeartbeats 40000000 in
theorem at_arg3 (c : Dev nD) : after (ops (F := F)) (launchContents m c) (Proc.devRef .tc main_arg3)
    = m ((c.tc : Thread nD τ).loc main_arg3) := by
  after_results_simp <;> rfl
set_option maxHeartbeats 40000000 in
theorem at_arg4 (c : Dev nD) : after (ops (F := F)) (launchContents m c) (Proc.devRef .tc main_arg4)
    = m ((c.tc : Thread nD τ).loc main_arg4) := by
  after_results_simp <;> rfl

/-- The result buffer after all the operations is the last stage applied to the five arguments. -/
theorem at_result (c : Dev nD) : after (ops (F := F)) (launchContents m c) (Proc.devRef .tc main_v79)
    = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hs : after (ops (F := F)) (launchContents m c) = after opsTail (after (ops.take 96) (launchContents m c)) :=
    (congrArg (fun l => after l (launchContents m c)) ops_split).trans (StableHlo.after_append _ _ _)
  generalize after (List.take 96 (ops (F := F))) (launchContents m c) = W at hs
  have k_arg0 : W (Proc.devRef .tc main_arg0) = after (ops (F := F)) (launchContents m c) (Proc.devRef .tc main_arg0) := by
    rw [hs]; exact (keep_arg0 W).symm
  have k_v48 : W (Proc.devRef .tc main_v48) = after (ops (F := F)) (launchContents m c) (Proc.devRef .tc main_v48) := by
    rw [hs]; exact (keep_v48 W).symm
  have k_v61 : W (Proc.devRef .tc main_v61) = after (ops (F := F)) (launchContents m c) (Proc.devRef .tc main_v61) := by
    rw [hs]; exact (keep_v61 W).symm
  have k_v74 : W (Proc.devRef .tc main_v74) = after (ops (F := F)) (launchContents m c) (Proc.devRef .tc main_v74) := by
    rw [hs]; exact (keep_v74 W).symm
  have k_arg3 : W (Proc.devRef .tc main_arg3) = after (ops (F := F)) (launchContents m c) (Proc.devRef .tc main_arg3) := by
    rw [hs]; exact (keep_arg3 W).symm
  have k_arg4 : W (Proc.devRef .tc main_arg4) = after (ops (F := F)) (launchContents m c) (Proc.devRef .tc main_arg4) := by
    rw [hs]; exact (keep_arg4 W).symm
  rw [hs, tail_result, k_arg0, k_v48, k_v61, k_v74, k_arg3, k_arg4, at_arg0, at_v48, at_v61, at_v74, at_arg3, at_arg4]
  rfl

/-- From any memory with zero counters every weakly fair execution of @main terminates with the result at the last
    stage of the arguments and the five arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v79).trans (at_result m c),
      (h c main_arg0).trans (at_arg0 m c), (h c main_arg1).trans (at_arg1 m c), (h c main_arg2).trans (at_arg2 m c),
      (h c main_arg3).trans (at_arg3 m c), (h c main_arg4).trans (at_arg4 m c)⟩)
    (run_seq scopedRefs_eq scopedSems_eq defs main (fun _ => ops) main_eq (fun _ => ops_sub) m ρ
      (hfresh := fun _ => List.forall_iff_forall_mem.mp ops_fresh))

end Cert.ReferenceIdeal.HandRun

end
-- ==== Proof.RefDense.lean ====
/-
  The reference's result at the exact arithmetic of the extended reals: its dot_general of the concatenated
  features with the weights, plus the bias laid first as one row and then along all 50000 rows, is product plus
  bias, entry by entry. The concatenated features stay one unopened function of the arguments.
-/
import proofs.«141966_j68135361184096_1_alg».proof.Proof.DenseSpec
import proofs.«141966_j68135361184096_1_alg».proof.Proof.RefRead

noncomputable section

namespace Cert.ReferenceIdeal.HandRef

open Cert.ReferenceIdeal Cert.ReferenceIdeal.Gen Cert.ReferenceIdeal.Read
open Idealize.ShloMosaic Idealize.ShloMosaic.TcCoe Idealize.ShloMosaic.ValueIdx Cert.Dense Cert.DenseHead

/-- The reference's last stage is product plus bias of its feature stage, the weights and the bias. -/
theorem result_eq (x0 : (⟨S50000x128, .f32⟩ : BufTy).Contents (Elt Ideal)) (x1 : (⟨S2x500000, .i32⟩ : BufTy).Contents (Elt Ideal))
    (x2 : (⟨S500000, .f32⟩ : BufTy).Contents (Elt Ideal)) (x3 : (⟨S512x256, .f32⟩ : BufTy).Contents (Elt Ideal))
    (x4 : (⟨S256, .f32⟩ : BufTy).Contents (Elt Ideal)) :
    val_main_v79 (F := Ideal) x0 x1 x2 x3 x4 = denseOut (M := 50000) (val_main_v75 (F := Ideal) x0 x1 x2) x3 x4 := by
  funext i
  rw [val_main_v79_apply, val_main_v76_apply, val_main_v78_apply, val_main_v77_apply, denseOut_apply]
  generalize val_main_v75 (F := Ideal) x0 x1 x2 = H
  have eL : ∀ k : Fin 512, lidx_main_v76 i k = ix2 (i 0 : Fin 50000) k := fun k =>
    funext fun a => by match a with | ⟨0, _⟩ => rfl | ⟨1, _⟩ => rfl
  have eR : ∀ k : Fin 512, ridx_main_v76 i k = ix2 k (i 1 : Fin 256) := fun k =>
    funext fun a => by match a with | ⟨0, _⟩ => rfl | ⟨1, _⟩ => rfl
  have eB : idx_main_v77 (idx_main_v78 i) = ix1 (i 1 : Fin 256) :=
    funext fun a => by match a with | ⟨0, _⟩ => rfl
  rw [eB]
  show (∑ k : Fin 512, H (lidx_main_v76 i k) * x3 (ridx_main_v76 i k)) + x4 (ix1 (i 1 : Fin 256)) = _
  congr 1
  exact Finset.sum_congr rfl fun k _ => by rw [eL k, eR k]; rfl

end Cert.ReferenceIdeal.HandRef

end
-- ==== Proof.lean ====
/-
  A graph convolution's dense head. Both programs first build, by the same host operations on the same arguments,
  the 50000×512 matrix H of node features beside their three propagated hops. The kernel then rounds H and the
  512×256 weights W to bf16 and, ten blocks of 5000 rows at a time, stores H·W plus the bias row; the reference
  takes one product H·W and adds the bias laid along the rows. At the exact arithmetic of the extended reals the
  rounding is the identity and a product into zeros is the textbook sum over the 512 shared coordinates, a sum in
  a commutative monoid, so no finiteness is used: both end at ∑ₖ H (r, k) · W (k, c) + β c at every entry (r, c),
  the ten row blocks being the row blocks of that one function and tiling the rows.

  The frames: the kernel's body loads three whole blocks, stores one, and keeps nothing between points, so the
  pipeline's run from any memory terminates with every argument array as it began — no host operation writes an
  argument —, at the word-level reading and at the exact one alike; the reference's frame is its run with the result
  dropped. The idealization rewrote nothing, so its preservation claim is trivial.
-/
import proofs.«141966_j68135361184096_1_alg».proof.Defs
import proofs.«141966_j68135361184096_1_alg».proof.Proof.Gen.Kernel
import proofs.«141966_j68135361184096_1_alg».proof.Proof.Gen.KernelIdeal
import proofs.«141966_j68135361184096_1_alg».proof.Proof.Gen.ReferenceIdeal
import proofs.«141966_j68135361184096_1_alg».proof.Proof.Gen.Pre_finite_inputs
import proofs.«141966_j68135361184096_1_alg».proof.Proof.KBFrame
import proofs.«141966_j68135361184096_1_alg».proof.Proof.KIRun
import proofs.«141966_j68135361184096_1_alg».proof.Proof.RefRunHand
import proofs.«141966_j68135361184096_1_alg».proof.Proof.RefDense

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.HandRun.run (F := Ideal) m ρ)

/-- Both runs end with the result at product plus bias of the same arrays: the kernel's by its ten row blocks, the
    reference's by its one product; the arguments agree, so the two values are one. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.HandRun.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.HandRef.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
